-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2x4096x1024 : Shape := ⟨3, ![2, 4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x1024 .f32) (main_arg12 : FVec F S1024x1024 .f32) (main_arg13 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x1024 .f32) (main_arg1 : FVec F S2x4096x1024 .f32) (main_arg2 : FVec F S1024x1024 .f32) (main_arg3 : FVec F S1024x1024 .f32) (main_arg4 : FVec F S1024 .f32) (main_arg5 : FVec F S1024x1024 .f32) (main_arg6 : FVec F S1024x1024 .f32) (main_arg7 : FVec F S1024 .f32) (main_arg8 : FVec F S1024x1024 .f32) (main_arg9 : FVec F S1024x1024 .f32) (main_arg10 : FVec F S1024 .f32) (main_arg11 : FVec F S1024x1024 .f32) (main_arg12 : FVec F S1024x1024 .f32) (main_arg13 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S2x4096x1024 .f32 := Host.absf main_arg1
  let main_cst_0 : FVec F S_ .f32 := constant S_ .f32 0x7F800000#32
  let main_v5 : FVec F S2x4096x1024 .f32 := broadcastInDim S2x4096x1024 ![] bcast_S_S2x4096x1024 main_cst_0
  let main_v6 : IVec S2x4096x1024 1 := cmpf .olt main_v4 main_v5
  let main_c_1 : IVec S_ 1 := constantI S_ 1 1#1
  let main_v7 : IVec S_ 1 := (fun x v => Host.reduce IntOp.andi x v reducesTo_S2x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x1024 : Shape := ⟨2, ![4096, 1024]⟩
abbrev S2x4096x1024 : Shape := ⟨3, ![2, 4096, 1024]⟩
abbrev S1024x1024 : Shape := ⟨2, ![1024, 1024]⟩
abbrev S1024 : Shape := ⟨1, ![1024]⟩
abbrev S1x4096x1024 : Shape := ⟨3, ![1, 4096, 1024]⟩
abbrev S1024x4096 : Shape := ⟨2, ![1024, 4096]⟩
abbrev S4096 : Shape := ⟨1, ![4096]⟩
abbrev S256x1024 : Shape := ⟨2, ![256, 1024]⟩
abbrev S256x4096 : Shape := ⟨2, ![256, 4096]⟩
abbrev S1x4096 : Shape := ⟨2, ![1, 4096]⟩

abbrev nBuf : Space → Nat
  | .hbm => 28
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S2x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1x4096x1024, .f32⟩
  | .hbm, ⟨15, _⟩ => ⟨S4096x1024, .f32⟩
  | .hbm, ⟨16, _⟩ => ⟨S1x4096x1024, .f32⟩
  | .hbm, ⟨17, _⟩ => ⟨S4096x1024, .f32⟩
  | .hbm, ⟨18, _⟩ => ⟨S1024x4096, .f32⟩
  | .hbm, ⟨19, _⟩ => ⟨S1024x4096, .bf16⟩
  | .hbm, ⟨20, _⟩ => ⟨S1024x4096, .f32⟩
  | .hbm, ⟨21, _⟩ => ⟨S1024x4096, .bf16⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x4096x1024, .f32⟩
  | .hbm, ⟨26, _⟩ => ⟨S1x4096x1024, .f32⟩
  | .hbm, ⟨27, _⟩ => ⟨S2x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x4096x1024_S1x4096x1024_0_0_0 : S2x4096x1024.Slices ![0, 0, 0] S1x4096x1024
  shapeCasts_S1x4096x1024_S4096x1024 : S1x4096x1024.ShapeCasts S4096x1024
  slices_S2x4096x1024_S1x4096x1024_1_0_0 : S2x4096x1024.Slices ![1, 0, 0] S1x4096x1024
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024_S1024_S1024_S1024_S4096_d0 : Shape.Concatenates [S1024, S1024, S1024, S1024] S4096 0
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2x4096x1024 : Shape := ⟨3, ![2, 4096, 1024]⟩
abbrev S1024x1024 : Shape := ⟨2, ![1024, 1024]⟩
abbrev S1024 : Shape := ⟨1, ![1024]⟩
abbrev S1x4096x1024 : Shape := ⟨3, ![1, 4096, 1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2x4096x1024, .f32⟩
  | .hbm, ⟨2, _⟩ => ⟨S1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1x4096x1024, .f32⟩
  | .hbm, ⟨15, _⟩ => ⟨S4096x1024, .f32⟩
  | .hbm, ⟨16, _⟩ => ⟨S1x4096x1024, .f32⟩
  | .hbm, ⟨17, _⟩ => ⟨S4096x1024, .f32⟩
  | .hbm, ⟨18, _⟩ => ⟨S1024x4096, .f32⟩
  | .hbm, ⟨19, _⟩ => ⟨S1024x4096, .f32⟩
  | .hbm, ⟨20, _⟩ => ⟨S4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x4096x1024, .f32⟩
  | .hbm, ⟨62, _⟩ => ⟨S1x4096x1024, .f32⟩
  | .hbm, ⟨63, _⟩ => ⟨S2x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]

class Facts₀ : Prop where
  slices_S2x4096x1024_S1x4096x1024_0_0_0 : S2x4096x1024.Slices ![0, 0, 0] S1x4096x1024
  shapeCasts_S1x4096x1024_S4096x1024 : S1x4096x1024.ShapeCasts S4096x1024
  slices_S2x4096x1024_S1x4096x1024_1_0_0 : S2x4096x1024.Slices ![1, 0, 0] S1x4096x1024
  concatenates_S1024x1024_S1024x1024_S1024x1024_S1024x1024_S1024x4096_d1 : Shape.Concatenates [S1024x1024, S1024x1024, S1024x1024, S1024x1024] S1024x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S4096x1024_S1x4096x1024_1_2 : S4096x1024.BroadcastsInDim S1x4096x1024 (![1, 2] : Fin 2 → Fin S1x4096x1024.rank)
  concatenates_S1x4096x1024_S1x4096x1024_S2x4096x1024_d0 : Shape.Concatenates [S1x4096x1024, S1x4096x1024] S2x4096x1024 0
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.RunKernel.lean ====
/-
  The run of the LSTM-step program: it terminates without a fault and leaves its fourteen argument arrays as
  they were, and what it leaves in its two result arrays is named.

  The program slices the stacked state into the previous hidden and cell states, joins the four weight matrices
  of each kind side by side (and narrows them), joins the four biases, and then runs one pipelined region over
  16 blocks of 256 batch rows. At block t the region's body reads rows 256 t .. 256 t + 255 of the input, the
  hidden state and the cell state, the whole joined weights and bias, and stores one 256 x 1024 block of each of
  the two results; afterwards two host lines stack the results.

  Here: the arrays as the region finds them (`V`: the host lines before it applied to the launch contents), the
  block of each array that a grid point sees (`iblk`), what the body leaves in the two result blocks as a function
  of the six input blocks (`outH`, `outC`), the body's triple, and the run of the whole program. Every statement
  holds at any float instance; the value of the results is read off `run_main` elsewhere.
-/
import proofs.«153569_j39101382263299_1_alg».proof.Proof.Gen.Kernel.Launch
import proofs.«153569_j39101382263299_1_alg».proof.Proof.Gen.Kernel.Skeleton
import proofs.«153569_j39101382263299_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: the nine host lines before it applied to the launch
    contents. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the three host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only buffers that live through the region: the region's arrays and the
    buffers it leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write none of the region's eight arrays: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line after the region writes argument 1 either, and the region does not stage it: it ends as
    launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 2 either, and the region does not stage it: it ends as
    launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes argument 3 either, and the region does not stage it: it ends as
    launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes argument 4 either, and the region does not stage it: it ends as
    launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes argument 5 either, and the region does not stage it: it ends as
    launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes argument 6 either, and the region does not stage it: it ends as
    launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes argument 7 either, and the region does not stage it: it ends as
    launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line after the region writes argument 8 either, and the region does not stage it: it ends as
    launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line after the region writes argument 9 either, and the region does not stage it: it ends as
    launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line after the region writes argument 10 either, and the region does not stage it: it ends as
    launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line after the region writes argument 11 either, and the region does not stage it: it ends as
    launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host line after the region writes argument 12 either, and the region does not stage it: it ends as
    launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host line after the region writes argument 13 either, and the region does not stage it: it ends as
    launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-! ## The blocks the grid points see -/

/-- Window `w`'s block at grid point `t`, read off its array as the region finds it: for the three batch-tiled
    inputs rows 256 t .. 256 t + 255, for the weights and the bias the whole array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every grid point, whether the point fetched it or the
    block index stood still since the last fetch. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every grid point, whether the point fetched it or the
    block index stood still since the last fetch. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every grid point, whether the point fetched it or the
    block index stood still since the last fetch. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every grid point, whether the point fetched it or the
    block index stood still since the last fetch. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every grid point, whether the point fetched it or the
    block index stood still since the last fetch. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every grid point, whether the point fetched it or the
    block index stood still since the last fetch. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- In a final state that has every array of the region and every other buffer named, the fourteen arguments hold
    their launch contents: the input array is a staged input (its contents at the end are those at the region's
    entry), the other thirteen are buffers the region leaves alone and no later line writes. -/
theorem kept_of (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c)⟩

/-- So a run to such a state is a run that keeps the arguments. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_of m dats hA r h c) h

/-! ## What the body reads and writes -/

/-- The whole 256 x 1024 block, the whole 1024 x 4096 weights, the whole bias: the body loads and stores nothing
    smaller. -/
abbrev rBlk : Rect S256x1024 := Rect.unit (s := S256x1024) ![0, 0] S256x1024.size inb_S256x1024_S256x1024_0_0
abbrev rWts : Rect S1024x4096 := Rect.unit (s := S1024x4096) ![0, 0] S1024x4096.size inb_S1024x4096_S1024x4096_0_0
abbrev rBias : Rect S4096 := Rect.unit (s := S4096) ![0] S4096.size inb_S4096_S4096_0

/-- The new hidden state's block after the body, from the six input blocks (input rows, previous hidden rows,
    previous cell rows, joined weights of each kind, joined bias): one store of the whole block. -/
def outH (x0 x1 x2 : Vec F S256x1024 .f32) (x3 x4 : Vec F S1024x4096 .bf16) (x5 : Vec F S4096 .f32) : Vec F S256x1024 .f32 :=
  View.canon [⟨rBlk, k0_pay3 (View.ld x0 rBlk) (View.ld x1 rBlk) (View.ld x3 rWts) (View.ld x4 rWts) (View.ld x5 rBias) (View.ld x2 rBlk)⟩]

/-- The new cell state's block after the body, likewise. -/
def outC (x0 x1 x2 : Vec F S256x1024 .f32) (x3 x4 : Vec F S1024x4096 .bf16) (x5 : Vec F S4096 .f32) : Vec F S256x1024 .f32 :=
  View.canon [⟨rBlk, k0_pay2 (View.ld x0 rBlk) (View.ld x1 rBlk) (View.ld x3 rWts) (View.ld x4 rWts) (View.ld x5 rBias) (View.ld x2 rBlk)⟩]

/-- One store of the whole block covers the block. -/
theorem cover_blk (p0 : Vec F S256x1024 .f32) (y : S256x1024.Idx) :
    ∃ pc ∈ ([⟨rBlk, p0⟩] : List (View.Piece (Elt F) S256x1024 .f32)), y ∈ pc.1.set :=
  View.cover_of_tiled [⟨rBlk, p0⟩] S256x1024.size (by rfl) y

/-! ## The body's triple -/

set_option maxHeartbeats 1000000 in
/-- The body, on whole staging buffers holding the six input blocks and anything in the two result blocks, runs to
    a state with the inputs untouched and the result blocks at `outH` and `outC` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_blk _)
  iexists _; isplitr
  swap; · iexact H7
  ipureintro
  exact View.read_writes_eq_canon _ _ _ (cover_blk _)

/-! ## The region's proof data -/

/-- The arrays as the region finds them; after the body at grid point `t` every input's buffer still at its block
    and the two results' at `outH` and `outC` of the six input blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after_7 (c : Dev nD) (t : Fin cfg0.N) : (dats m 0 c).after 7 t = outC (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body at a grid point -/

/-- What the body is handed at grid point `t`: the eight windows' current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; at the end each of the region's eight
    arrays holds its entry contents overwritten by what the body left at each block, and every other buffer what
    the three closing host lines make of that. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end and its fourteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Run

end
-- ==== Proof.RunKernelIdeal.lean ====
/-
  The run of the LSTM-step program: it terminates without a fault and leaves its fourteen argument arrays as
  they were, and what it leaves in its two result arrays is named.

  The program slices the stacked state into the previous hidden and cell states, joins the four weight matrices
  of each kind side by side (and narrows them), joins the four biases, and then runs one pipelined region over
  16 blocks of 256 batch rows. At block t the region's body reads rows 256 t .. 256 t + 255 of the input, the
  hidden state and the cell state, the whole joined weights and bias, and stores one 256 x 1024 block of each of
  the two results; afterwards two host lines stack the results.

  Here: the arrays as the region finds them (`V`: the host lines before it applied to the launch contents), the
  block of each array that a grid point sees (`iblk`), what the body leaves in the two result blocks as a function
  of the six input blocks (`outH`, `outC`), the body's triple, and the run of the whole program. Every statement
  holds at any float instance; the value of the results is read off `run_main` elsewhere.
-/
import proofs.«153569_j39101382263299_1_alg».proof.Proof.Gen.KernelIdeal.Launch
import proofs.«153569_j39101382263299_1_alg».proof.Proof.Gen.KernelIdeal.Skeleton
import proofs.«153569_j39101382263299_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: the nine host lines before it applied to the launch
    contents. -/
abbrev V0 (c : Dev nD) : Valuation τ sig (Elt F) := StableHlo.after (List.flatten [hostOps0]) (fun b => m (c, b))
/-- The same read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the region, the region, the three host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only buffers that live through the region: the region's arrays and the
    buffers it leaves alone. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write none of the region's eight arrays: each writes its own result buffer only. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- No host line after the region writes argument 1 either, and the region does not stage it: it ends as
    launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line after the region writes argument 2 either, and the region does not stage it: it ends as
    launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line after the region writes argument 3 either, and the region does not stage it: it ends as
    launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line after the region writes argument 4 either, and the region does not stage it: it ends as
    launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line after the region writes argument 5 either, and the region does not stage it: it ends as
    launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line after the region writes argument 6 either, and the region does not stage it: it ends as
    launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line after the region writes argument 7 either, and the region does not stage it: it ends as
    launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line after the region writes argument 8 either, and the region does not stage it: it ends as
    launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line after the region writes argument 9 either, and the region does not stage it: it ends as
    launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c

/-- No host line after the region writes argument 10 either, and the region does not stage it: it ends as
    launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

/-- No host line after the region writes argument 11 either, and the region does not stage it: it ends as
    launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

/-- No host line after the region writes argument 12 either, and the region does not stage it: it ends as
    launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

/-- No host line after the region writes argument 13 either, and the region does not stage it: it ends as
    launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      repeat' apply And.intro
      all_goals exact StableHlo.devRef_ne_of_ne (by decide))),
    Pipeline.withArrays_of_ne _ c (V0 m c) _ main_arg13 (by exact (by decide : ∀ w, Pipeline.arrRef spec0 w ≠ main_arg13))]
  exact V_main_arg13 m c

/-! ## The blocks the grid points see -/

/-- Window `w`'s block at grid point `t`, read off its array as the region finds it: for the three batch-tiled
    inputs rows 256 t .. 256 t + 255, for the weights and the bias the whole array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every grid point, whether the point fetched it or the
    block index stood still since the last fetch. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every grid point, whether the point fetched it or the
    block index stood still since the last fetch. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every grid point, whether the point fetched it or the
    block index stood still since the last fetch. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every grid point, whether the point fetched it or the
    block index stood still since the last fetch. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every grid point, whether the point fetched it or the
    block index stood still since the last fetch. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every grid point, whether the point fetched it or the
    block index stood still since the last fetch. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as launched -/

/-- In a final state that has every array of the region and every other buffer named, the fourteen arguments hold
    their launch contents: the input array is a staged input (its contents at the end are those at the region's
    entry), the other thirteen are buffers the region leaves alone and no later line writes. -/
theorem kept_of (dats : (p : Fin 1) → (c : Dev nD) → Dat τ (Elt F) Unit ℕ (UR sig nD τ) ℕ (cfgs p) c)
    (hA : ∀ c w, (dats 0 c).A w = V m c (Pipeline.arrRef spec0 w)) (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).2 main_arg13 (Pipeline.mem_restRefs_of main_arg13 (by decide) (by decide))).trans (W_main_arg13 m dats c)⟩

/-- So a run to such a state is a run that keeps the arguments. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept_of m dats hA r h c) h

/-! ## What the body reads and writes -/

/-- The whole 256 x 1024 block, the whole 1024 x 4096 weights, the whole bias: the body loads and stores nothing
    smaller. -/
abbrev rBlk : Rect S256x1024 := Rect.unit (s := S256x1024) ![0, 0] S256x1024.size inb_S256x1024_S256x1024_0_0
abbrev rWts : Rect S1024x4096 := Rect.unit (s := S1024x4096) ![0, 0] S1024x4096.size inb_S1024x4096_S1024x4096_0_0
abbrev rBias : Rect S4096 := Rect.unit (s := S4096) ![0] S4096.size inb_S4096_S4096_0

/-- The new hidden state's block after the body, from the six input blocks (input rows, previous hidden rows,
    previous cell rows, joined weights of each kind, joined bias): one store of the whole block. -/
def outH (x0 x1 x2 : Vec F S256x1024 .f32) (x3 x4 : Vec F S1024x4096 .bf16) (x5 : Vec F S4096 .f32) : Vec F S256x1024 .f32 :=
  View.canon [⟨rBlk, k0_pay3 (View.ld x0 rBlk) (View.ld x1 rBlk) (View.ld x3 rWts) (View.ld x4 rWts) (View.ld x5 rBias) (View.ld x2 rBlk)⟩]

/-- The new cell state's block after the body, likewise. -/
def outC (x0 x1 x2 : Vec F S256x1024 .f32) (x3 x4 : Vec F S1024x4096 .bf16) (x5 : Vec F S4096 .f32) : Vec F S256x1024 .f32 :=
  View.canon [⟨rBlk, k0_pay2 (View.ld x0 rBlk) (View.ld x1 rBlk) (View.ld x3 rWts) (View.ld x4 rWts) (View.ld x5 rBias) (View.ld x2 rBlk)⟩]

/-- One store of the whole block covers the block. -/
theorem cover_blk (p0 : Vec F S256x1024 .f32) (y : S256x1024.Idx) :
    ∃ pc ∈ ([⟨rBlk, p0⟩] : List (View.Piece (Elt F) S256x1024 .f32)), y ∈ pc.1.set :=
  View.cover_of_tiled [⟨rBlk, p0⟩] S256x1024.size (by rfl) y

/-! ## The body's triple -/

set_option maxHeartbeats 1000000 in
/-- The body, on whole staging buffers holding the six input blocks and anything in the two result blocks, runs to
    a state with the inputs untouched and the result blocks at `outH` and `outC` of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_blk _)
  iexists _; isplitr
  swap; · iexact H7
  ipureintro
  exact View.read_writes_eq_canon _ _ _ (cover_blk _)

/-! ## The region's proof data -/

/-- The arrays as the region finds them; after the body at grid point `t` every input's buffer still at its block
    and the two results' at `outH` and `outC` of the six input blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outH (iblk m c 0 t) (iblk m c 1 t) (iblk m c 2 t) (iblk m c 3 t) (iblk m c 4 t) (iblk m c 5 t) := by dsimp only [dats]
theorem after_7 (c : Dev nD) (t : Fin cfg0.N) : (dats m 0 c).after 7 t = outC (iblk m c 0 t) (iblk m c 1 t) (iblk m c 2 t) (iblk m c 3 t) (iblk m c 4 t) (iblk m c 5 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body at a grid point -/

/-- What the body is handed at grid point `t`: the eight windows' current staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates without a fault; at the end each of the region's eight
    arrays holds its entry contents overwritten by what the body left at each block, and every other buffer what
    the three closing host lines make of that. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end and its fourteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Run

end
-- ==== Proof.Cell.lean ====
/-
  One step of an LSTM cell, read entry by entry over the extended reals.

  For a batch of n rows with inputs X (n x 1024) and previous hidden state H (n x 1024), fused weights
  W, U (1024 x 4096) and a fused bias b (4096), the pre-activation of row r at fused column j is

      pre r j = (sum_k X[r,k] * W[k,j]  +  sum_k H[r,k] * U[k,j])  +  b[j].

  The fused column axis holds four gates of 1024 columns each: input (offset 0), forget (offset 1024),
  output (offset 2048) and candidate (offset 3072). With the previous cell state C (n x 1024),

      cellOut r q = logistic (pre r (1024 + q)) * C[r,q]  +  logistic (pre r q) * tanh (pre r (3072 + q))
      hidOut  r q = logistic (pre r (2048 + q)) * tanh (cellOut r q).

  Everything here is generic in the number of rows n: a row of the result depends on that one row of X, H and C
  only, so a block of rows of the whole batch computes the same entries as the whole batch does (the lemmas
  `*_rows` below). Nothing needs finiteness: the two sides of every equation are the same expression of the
  same entries.
-/
import Idealize.ShloMosaic.PureOps.Ideal.Laws
import Idealize.ShloMosaic.Lib.ValueIdx

noncomputable section

namespace Cert.LstmStep

open Idealize.ShloMosaic Idealize.ShloMosaic.ValueIdx

/-- An a x b matrix of extended reals, indexed as the programs index their rank-2 arrays. -/
abbrev Mat (a b : Nat) : Type := (⟨2, ![a, b]⟩ : Shape).Idx → EReal
/-- A vector of extended reals of length a. -/
abbrev Vc (a : Nat) : Type := (⟨1, ![a]⟩ : Shape).Idx → EReal

/-- Column `o + q` of the fused gate axis: column q of the gate that starts at offset o. -/
abbrev gcol (o : Nat) (ho : o + 1024 ≤ 4096) (q : Fin 1024) : Fin 4096 := ⟨o + q.val, by have := q.isLt; omega⟩

/-- The pre-activation of row r at fused column j. -/
def pre {n : Nat} (X H : Mat n 1024) (W U : Mat 1024 4096) (b : Vc 4096) (r : Fin n) (j : Fin 4096) : EReal :=
  ((∑ k : Fin 1024, X (ix2 r k) * W (ix2 k j)) + ∑ k : Fin 1024, H (ix2 r k) * U (ix2 k j)) + b (ix1 j)

/-- The new cell state of row r at column q. -/
def cellOut {n : Nat} (X H C : Mat n 1024) (W U : Mat 1024 4096) (b : Vc 4096) (r : Fin n) (q : Fin 1024) : EReal :=
  Ideal.logistic (pre X H W U b r (gcol 1024 (by decide) q)) * C (ix2 r q)
    + Ideal.logistic (pre X H W U b r (gcol 0 (by decide) q)) * Ideal.tanh (pre X H W U b r (gcol 3072 (by decide) q))

/-- The new hidden state of row r at column q. -/
def hidOut {n : Nat} (X H C : Mat n 1024) (W U : Mat 1024 4096) (b : Vc 4096) (r : Fin n) (q : Fin 1024) : EReal :=
  Ideal.logistic (pre X H W U b r (gcol 2048 (by decide) q)) * Ideal.tanh (cellOut X H C W U b r q)

/-- A row's pre-activation depends on that row of X and H only: two batches that agree on a row (at possibly
    different row numbers) have the same pre-activations there. -/
theorem pre_rows {n n' : Nat} (X H : Mat n 1024) (X' H' : Mat n' 1024) (W U : Mat 1024 4096) (b : Vc 4096)
    (r : Fin n) (r' : Fin n') (hX : ∀ k, X (ix2 r k) = X' (ix2 r' k)) (hH : ∀ k, H (ix2 r k) = H' (ix2 r' k))
    (j : Fin 4096) : pre X H W U b r j = pre X' H' W U b r' j := by
  unfold pre
  simp only [hX, hH]

/-- The same for the new cell state, which also reads the previous cell state at its own entry. -/
theorem cellOut_rows {n n' : Nat} (X H C : Mat n 1024) (X' H' C' : Mat n' 1024) (W U : Mat 1024 4096) (b : Vc 4096)
    (r : Fin n) (r' : Fin n') (hX : ∀ k, X (ix2 r k) = X' (ix2 r' k)) (hH : ∀ k, H (ix2 r k) = H' (ix2 r' k))
    (q : Fin 1024) (hC : C (ix2 r q) = C' (ix2 r' q)) :
    cellOut X H C W U b r q = cellOut X' H' C' W U b r' q := by
  unfold cellOut
  rw [pre_rows X H X' H' W U b r r' hX hH, pre_rows X H X' H' W U b r r' hX hH, pre_rows X H X' H' W U b r r' hX hH, hC]

/-- And for the new hidden state. -/
theorem hidOut_rows {n n' : Nat} (X H C : Mat n 1024) (X' H' C' : Mat n' 1024) (W U : Mat 1024 4096) (b : Vc 4096)
    (r : Fin n) (r' : Fin n') (hX : ∀ k, X (ix2 r k) = X' (ix2 r' k)) (hH : ∀ k, H (ix2 r k) = H' (ix2 r' k))
    (q : Fin 1024) (hC : C (ix2 r q) = C' (ix2 r' q)) :
    hidOut X H C W U b r q = hidOut X' H' C' W U b r' q := by
  unfold hidOut
  rw [pre_rows X H X' H' W U b r r' hX hH, cellOut_rows X H C X' H' C' W U b r r' hX hH q hC]

end Cert.LstmStep

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.KernelCell.lean ====
/-
  The body's arithmetic, read at one entry over the extended reals.

  The body joins two matrix products into a zero accumulator, of the 256 input rows and of the 256 previous hidden
  rows with the joined weights, adds the joined bias along the rows, cuts the 4096 fused columns into the four
  gates and combines them. Narrowing the operands of the products changes nothing at the extended reals, a matrix
  product into zero is the plain sum over the contracted axis, and the bias (a vector viewed as one row, repeated
  down the rows) is read at its column. So at row p the three payloads are the LSTM step of that row:
  the pre-activation, the new cell state and the new hidden state.
-/
import proofs.«153569_j39101382263299_1_alg».proof.Proof.Gen.KernelIdeal.Skeleton
import proofs.«153569_j39101382263299_1_alg».proof.Proof.Cell
import proofs.«153569_j39101382263299_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.CellValue

open Cert.KernelIdeal Cert.KernelIdeal.Gen Cert.LstmStep
open Idealize.ShloMosaic Idealize.ShloMosaic.ValueIdx

/-- The body's contraction is the plain one: rows by contraction times contraction by columns. -/
theorem dims_plain : dot_S256x1024_S1024x4096_S256x4096_1_0_0_1_n_n = DotDims.plain 256 1024 4096 := rfl

/-- The pre-activations of the block's row p at fused column j. -/
theorem preact_apply (x0 h0 : Vec Ideal S256x1024 .f32) (w0 u0 : Vec Ideal S1024x4096 .bf16) (b0 : Vec Ideal S4096 .f32)
    (p : Fin 256) (j : Fin 4096) :
    k0_pay1 (F := Ideal) x0 h0 w0 u0 b0 (ix2 p j) = pre x0 h0 w0 u0 b0 p j := by
  unfold k0_pay1 pre
  rw [addf_apply, addf_apply, shapeCast_self, shapeCast_self, shapeCast_self, shapeCast_self, dims_plain]
  unfold matmul
  rw [Cert.Lib.PlainDot.matmul_zero_apply, Cert.Lib.PlainDot.matmul_zero_apply, broadcastTo_1b_ab_apply, shapeCast_a_1a_apply]
  rfl

/-- The new cell state of the block's row p at column q. -/
theorem cell_apply (x0 h0 c0 : Vec Ideal S256x1024 .f32) (w0 u0 : Vec Ideal S1024x4096 .bf16) (b0 : Vec Ideal S4096 .f32)
    (p : Fin 256) (q : Fin 1024) :
    k0_pay2 (F := Ideal) x0 h0 w0 u0 b0 c0 (ix2 p q) = cellOut x0 h0 c0 w0 u0 b0 p q := by
  unfold k0_pay2 cellOut
  rw [addf_apply, mulf_apply, mulf_apply, shapeCast_self]
  show Ideal.logistic (extractStridedSlice S256x1024 ![0, 1024] (k0_pay1 (F := Ideal) x0 h0 w0 u0 b0) slices_S256x4096_o0_1024_S256x1024 (ix2 p q)) * c0 (ix2 p q)
      + Ideal.logistic (extractStridedSlice S256x1024 ![0, 0] (k0_pay1 (F := Ideal) x0 h0 w0 u0 b0) slices_S256x4096_o0_0_S256x1024 (ix2 p q))
        * Ideal.tanh (extractStridedSlice S256x1024 ![0, 3072] (k0_pay1 (F := Ideal) x0 h0 w0 u0 b0) slices_S256x4096_o0_3072_S256x1024 (ix2 p q)) = _
  rw [slice2_axis1_eq, slice2_axis1_eq, slice2_axis1_eq, preact_apply, preact_apply, preact_apply]

/-- The new hidden state of the block's row p at column q. -/
theorem hid_apply (x0 h0 c0 : Vec Ideal S256x1024 .f32) (w0 u0 : Vec Ideal S1024x4096 .bf16) (b0 : Vec Ideal S4096 .f32)
    (p : Fin 256) (q : Fin 1024) :
    k0_pay3 (F := Ideal) x0 h0 w0 u0 b0 c0 (ix2 p q) = hidOut x0 h0 c0 w0 u0 b0 p q := by
  unfold k0_pay3 hidOut
  rw [mulf_apply]
  show Ideal.logistic (extractStridedSlice S256x1024 ![0, 2048] (k0_pay1 (F := Ideal) x0 h0 w0 u0 b0) slices_S256x4096_o0_2048_S256x1024 (ix2 p q))
      * Ideal.tanh (k0_pay2 (F := Ideal) x0 h0 w0 u0 b0 c0 (ix2 p q)) = _
  rw [slice2_axis1_eq, preact_apply, cell_apply]

/-- A block whose rows are rows of the whole batch (row p of the block is row r of the batch) computes the batch's
    new hidden state there. -/
theorem hid_block (X H C : Mat 4096 1024) (W U : Mat 1024 4096) (b : Vc 4096)
    (x0 h0 c0 : Vec Ideal S256x1024 .f32) (w0 u0 : Vec Ideal S1024x4096 .bf16) (b0 : Vec Ideal S4096 .f32)
    (p : Fin 256) (q : Fin 1024) (r : Fin 4096)
    (hx : ∀ k, x0 (ix2 p k) = X (ix2 r k)) (hh : ∀ k, h0 (ix2 p k) = H (ix2 r k)) (hc : c0 (ix2 p q) = C (ix2 r q))
    (hw : w0 = W) (hu : u0 = U) (hb : b0 = b) :
    k0_pay3 (F := Ideal) x0 h0 w0 u0 b0 c0 (ix2 p q) = hidOut X H C W U b r q := by
  subst hw hu hb
  rw [hid_apply]
  exact hidOut_rows x0 h0 c0 X H C w0 u0 b0 p r hx hh q hc

/-- And the batch's new cell state. -/
theorem cell_block (X H C : Mat 4096 1024) (W U : Mat 1024 4096) (b : Vc 4096)
    (x0 h0 c0 : Vec Ideal S256x1024 .f32) (w0 u0 : Vec Ideal S1024x4096 .bf16) (b0 : Vec Ideal S4096 .f32)
    (p : Fin 256) (q : Fin 1024) (r : Fin 4096)
    (hx : ∀ k, x0 (ix2 p k) = X (ix2 r k)) (hh : ∀ k, h0 (ix2 p k) = H (ix2 r k)) (hc : c0 (ix2 p q) = C (ix2 r q))
    (hw : w0 = W) (hu : u0 = U) (hb : b0 = b) :
    k0_pay2 (F := Ideal) x0 h0 w0 u0 b0 c0 (ix2 p q) = cellOut X H C W U b r q := by
  subst hw hu hb
  rw [cell_apply]
  exact cellOut_rows x0 h0 c0 X H C w0 u0 b0 p r hx hh q hc

end Cert.KernelIdeal.CellValue

end
-- ==== Proof.KernelArr.lean ====
/-
  What the idealized program leaves in its result, over the extended reals.

  The region's two result arrays are tiled by 16 blocks of 256 rows, and block t of each is what the body stored at
  grid point t: the LSTM step of rows 256 t .. 256 t + 255, computed from those rows of the input, the previous
  hidden state and the previous cell state (the blocks the point was handed) and from the whole joined weights and
  bias (handed whole at every point). Since a row of the step depends on that row only, every block agrees with the
  step of the whole batch, and the blocks cover the arrays: the arrays end holding the whole batch's new hidden and
  cell states. The two closing host lines give each a leading axis of extent one and join them along it.
-/
import proofs.«153569_j39101382263299_1_alg».proof.Proof.RunKernelIdeal
import proofs.«153569_j39101382263299_1_alg».proof.Proof.KernelCell
import Idealize.ShloMosaic.Lib.Pipeline.Value
import Idealize.ShloMosaic.Lib.ValueIdx
import Idealize.ShloMosaic.Lib.StableHlo.Run

set_option maxRecDepth 16384

noncomputable section

namespace Cert.KernelIdeal.Arr

open Cert.KernelIdeal Cert.KernelIdeal.Gen Cert.KernelIdeal.Run Cert.KernelIdeal.CellValue Cert.LstmStep
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The arrays the region reads, as it finds them -/

abbrev Xa (c : Dev nD) : Mat 4096 1024 := V m c main_arg0
abbrev Ha (c : Dev nD) : Mat 4096 1024 := V m c main_v1
abbrev Ca (c : Dev nD) : Mat 4096 1024 := V m c main_v3
abbrev Wa (c : Dev nD) : Mat 1024 4096 := V m c main_v5
abbrev Ua (c : Dev nD) : Mat 1024 4096 := V m c main_v7
abbrev ba (c : Dev nD) : Vc 4096 := V m c main_v8

/-- The whole batch's new hidden state, from the arrays the region finds. -/
def newH (c : Dev nD) : S4096x1024.Idx → Elt Ideal .f32 := fun i =>
  hidOut (Xa m c) (Ha m c) (Ca m c) (Wa m c) (Ua m c) (ba m c) ⟨(i 0).val, idx2_lt0 i⟩ ⟨(i 1).val, idx2_lt1 i⟩
/-- The whole batch's new cell state. -/
def newC (c : Dev nD) : S4096x1024.Idx → Elt Ideal .f32 := fun i =>
  cellOut (Xa m c) (Ha m c) (Ca m c) (Wa m c) (Ua m c) (ba m c) ⟨(i 0).val, idx2_lt0 i⟩ ⟨(i 1).val, idx2_lt1 i⟩

theorem newH_at (c : Dev nD) (i : S4096x1024.Idx) (r : Fin 4096) (q : Fin 1024) (h0 : (i 0).val = r.val) (h1 : (i 1).val = q.val) :
    newH m c i = hidOut (Xa m c) (Ha m c) (Ca m c) (Wa m c) (Ua m c) (ba m c) r q := by
  unfold newH
  rw [show (⟨(i 0).val, idx2_lt0 i⟩ : Fin 4096) = r from Fin.ext h0, show (⟨(i 1).val, idx2_lt1 i⟩ : Fin 1024) = q from Fin.ext h1]
theorem newC_at (c : Dev nD) (i : S4096x1024.Idx) (r : Fin 4096) (q : Fin 1024) (h0 : (i 0).val = r.val) (h1 : (i 1).val = q.val) :
    newC m c i = cellOut (Xa m c) (Ha m c) (Ca m c) (Wa m c) (Ua m c) (ba m c) r q := by
  unfold newC
  rw [show (⟨(i 0).val, idx2_lt0 i⟩ : Fin 4096) = r from Fin.ext h0, show (⟨(i 1).val, idx2_lt1 i⟩ : Fin 1024) = q from Fin.ext h1]

/-! ## Where the blocks lie -/

theorem hz2 : (![0, 0] : Fin 2 → Nat) = fun _ => 0 := funext fun a => by fin_cases a <;> rfl
theorem hz1 : (![0] : Fin 1 → Nat) = fun _ => 0 := funext fun a => by fin_cases a <;> rfl

/-- The block index maps over the 16 grid points: the batch-tiled windows are at block row t, column block 0; the
    weights and the bias stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 16 := lt_of_lt_of_eq t.isLt N_0

/-- Row p of block t is row 256 t + p of the batch. -/
def row (t : Fin cfg0.N) (p : Fin 256) : Fin 4096 := ⟨256 * t.val + p.val, by have := t_lt t; have := p.isLt; omega⟩

theorem blkX (c : Dev nD) (t : Fin cfg0.N) (p : Fin 256) (k : Fin 1024) : iblk m c 0 t (ix2 p k) = Xa m c (ix2 (row t p) k) := by
  obtain ⟨e00, e01, -⟩ := idx_facts t
  show V m c main_arg0 (((cfg0.win 0).blk t).view.emb (ix2 p k)) = V m c main_arg0 (ix2 (row t p) k)
  congr 1; funext a; apply Fin.ext
  match a with
  | ⟨0, _⟩ => show win0_0.index t (0 : Fin 2) * 256 + 1 * p.val = 256 * t.val + p.val; omega
  | ⟨1, _⟩ => show win0_0.index t (1 : Fin 2) * 1024 + 1 * k.val = k.val; omega

theorem blkH (c : Dev nD) (t : Fin cfg0.N) (p : Fin 256) (k : Fin 1024) : iblk m c 1 t (ix2 p k) = Ha m c (ix2 (row t p) k) := by
  obtain ⟨-, -, e10, e11, -⟩ := idx_facts t
  show V m c main_v1 (((cfg0.win 1).blk t).view.emb (ix2 p k)) = V m c main_v1 (ix2 (row t p) k)
  congr 1; funext a; apply Fin.ext
  match a with
  | ⟨0, _⟩ => show win0_1.index t (0 : Fin 2) * 256 + 1 * p.val = 256 * t.val + p.val; omega
  | ⟨1, _⟩ => show win0_1.index t (1 : Fin 2) * 1024 + 1 * k.val = k.val; omega

theorem blkC (c : Dev nD) (t : Fin cfg0.N) (p : Fin 256) (k : Fin 1024) : iblk m c 2 t (ix2 p k) = Ca m c (ix2 (row t p) k) := by
  obtain ⟨-, -, -, -, e20, e21, -⟩ := idx_facts t
  show V m c main_v3 (((cfg0.win 2).blk t).view.emb (ix2 p k)) = V m c main_v3 (ix2 (row t p) k)
  congr 1; funext a; apply Fin.ext
  match a with
  | ⟨0, _⟩ => show win0_2.index t (0 : Fin 2) * 256 + 1 * p.val = 256 * t.val + p.val; omega
  | ⟨1, _⟩ => show win0_2.index t (1 : Fin 2) * 1024 + 1 * k.val = k.val; omega

theorem blkW (c : Dev nD) (t : Fin cfg0.N) : iblk m c 3 t = Wa m c := by
  obtain ⟨-, -, -, -, -, -, e30, e31, -⟩ := idx_facts t
  funext y
  show V m c main_v5 (((cfg0.win 3).blk t).view.emb y) = V m c main_v5 y
  congr 1; funext a; apply Fin.ext
  match a with
  | ⟨0, _⟩ => show win0_3.index t (0 : Fin 2) * 1024 + 1 * (y 0).val = (y 0).val; omega
  | ⟨1, _⟩ => show win0_3.index t (1 : Fin 2) * 4096 + 1 * (y 1).val = (y 1).val; omega

theorem blkU (c : Dev nD) (t : Fin cfg0.N) : iblk m c 4 t = Ua m c := by
  obtain ⟨-, -, -, -, -, -, -, -, e40, e41, -⟩ := idx_facts t
  funext y
  show V m c main_v7 (((cfg0.win 4).blk t).view.emb y) = V m c main_v7 y
  congr 1; funext a; apply Fin.ext
  match a with
  | ⟨0, _⟩ => show win0_4.index t (0 : Fin 2) * 1024 + 1 * (y 0).val = (y 0).val; omega
  | ⟨1, _⟩ => show win0_4.index t (1 : Fin 2) * 4096 + 1 * (y 1).val = (y 1).val; omega

theorem blkb (c : Dev nD) (t : Fin cfg0.N) : iblk m c 5 t = ba m c := by
  obtain ⟨-, -, -, -, -, -, -, -, -, -, e50, -⟩ := idx_facts t
  funext y
  show V m c main_v8 (((cfg0.win 5).blk t).view.emb y) = V m c main_v8 y
  congr 1; funext a; apply Fin.ext
  match a with
  | ⟨0, _⟩ => show win0_5.index t (0 : Fin 1) * 4096 + 1 * (y 0).val = (y 0).val; omega

/-! ## What each grid point writes back -/

theorem flushedH_eq (c : Dev nD) (t : Fin cfg0.N) :
    (dats m 0 c).flushed 6 t = ((cfg0.win 6).blk t).view.read (Elt Ideal) (newH m c) := by
  show (cfg0.win 6).cut (grid0.coords t) ((dats m 0 c).after 6 t) = _
  rw [after_6]
  unfold outH
  rw [View.canon_unit_zero hz2]
  simp only [View.ld_unit_zero (S := S256x1024) hz2, View.ld_unit_zero (S := S1024x4096) hz2, View.ld_unit_zero (S := S4096) hz1]
  obtain ⟨-, -, -, -, -, -, -, -, -, -, -, e60, e61, -⟩ := idx_facts t
  refine funext fun (j : S256x1024.Idx) => ?_
  obtain ⟨p, q, rfl⟩ : ∃ (p : Fin 256) (q : Fin 1024), j = ix2 p q := ⟨j 0, j 1, eq_ix2 j⟩
  show k0_pay3 (F := Ideal) (iblk m c 0 t) (iblk m c 1 t) (iblk m c 3 t) (iblk m c 4 t) (iblk m c 5 t) (iblk m c 2 t) (ix2 p q)
    = newH m c (((cfg0.win 6).blk t).view.emb (ix2 p q))
  rw [newH_at m c (((cfg0.win 6).blk t).view.emb (ix2 p q)) (row t p) q
    (by show win0_6.index t (0 : Fin 2) * 256 + 1 * p.val = 256 * t.val + p.val; omega)
    (by show win0_6.index t (1 : Fin 2) * 1024 + 1 * q.val = q.val; omega)]
  exact hid_block (Xa m c) (Ha m c) (Ca m c) (Wa m c) (Ua m c) (ba m c) (iblk m c 0 t) (iblk m c 1 t) (iblk m c 2 t)
    (iblk m c 3 t) (iblk m c 4 t) (iblk m c 5 t) p q (row t p) (blkX m c t p) (blkH m c t p) (blkC m c t p q)
    (blkW m c t) (blkU m c t) (blkb m c t)

theorem flushedC_eq (c : Dev nD) (t : Fin cfg0.N) :
    (dats m 0 c).flushed 7 t = ((cfg0.win 7).blk t).view.read (Elt Ideal) (newC m c) := by
  show (cfg0.win 7).cut (grid0.coords t) ((dats m 0 c).after 7 t) = _
  rw [after_7]
  unfold outC
  rw [View.canon_unit_zero hz2]
  simp only [View.ld_unit_zero (S := S256x1024) hz2, View.ld_unit_zero (S := S1024x4096) hz2, View.ld_unit_zero (S := S4096) hz1]
  obtain ⟨-, -, -, -, -, -, -, -, -, -, -, -, -, e70, e71⟩ := idx_facts t
  refine funext fun (j : S256x1024.Idx) => ?_
  obtain ⟨p, q, rfl⟩ : ∃ (p : Fin 256) (q : Fin 1024), j = ix2 p q := ⟨j 0, j 1, eq_ix2 j⟩
  show k0_pay2 (F := Ideal) (iblk m c 0 t) (iblk m c 1 t) (iblk m c 3 t) (iblk m c 4 t) (iblk m c 5 t) (iblk m c 2 t) (ix2 p q)
    = newC m c (((cfg0.win 7).blk t).view.emb (ix2 p q))
  rw [newC_at m c (((cfg0.win 7).blk t).view.emb (ix2 p q)) (row t p) q
    (by show win0_7.index t (0 : Fin 2) * 256 + 1 * p.val = 256 * t.val + p.val; omega)
    (by show win0_7.index t (1 : Fin 2) * 1024 + 1 * q.val = q.val; omega)]
  exact cell_block (Xa m c) (Ha m c) (Ca m c) (Wa m c) (Ua m c) (ba m c) (iblk m c 0 t) (iblk m c 1 t) (iblk m c 2 t)
    (iblk m c 3 t) (iblk m c 4 t) (iblk m c 5 t) p q (row t p) (blkX m c t p) (blkH m c t p) (blkC m c t p q)
    (blkW m c t) (blkU m c t) (blkb m c t)

/-! ## The blocks cover the arrays -/

/-- The grid point whose block holds row `n`. -/
def pointOf (n : Nat) (hn : n < 4096) : Fin cfg0.N := ⟨n / 256, lt_of_lt_of_eq (by omega : n / 256 < 16) N_0.symm⟩

theorem coverH (i : S4096x1024.Idx) : ∃ t : Fin cfg0.N, (cfg0.win 6).flush t = true ∧ i ∈ ((cfg0.win 6).blk t).view.set := by
  have hi0 : (i 0).val < 4096 := idx2_lt0 i
  have hi1 : (i 1).val < 1024 := idx2_lt1 i
  refine ⟨pointOf (i 0).val hi0, flush0_6 _, ?_⟩
  obtain ⟨-, -, -, -, -, -, -, -, -, -, -, e60, e61, -⟩ := idx_facts (pointOf (i 0).val hi0)
  have et : (pointOf (i 0).val hi0).val = (i 0).val / 256 := rfl
  show i ∈ ((View.whole main_v9_0).slice (win0_6.rect (pointOf (i 0).val hi0))).set
  rw [View.set_slice_whole, Rect.mem_set_unit]
  intro a
  match a with
  | ⟨0, _⟩ => show win0_6.index (pointOf (i 0).val hi0) (0 : Fin 2) * 256 ≤ (i 0).val ∧ (i 0).val < win0_6.index (pointOf (i 0).val hi0) (0 : Fin 2) * 256 + 256; omega
  | ⟨1, _⟩ => show win0_6.index (pointOf (i 0).val hi0) (1 : Fin 2) * 1024 ≤ (i 1).val ∧ (i 1).val < win0_6.index (pointOf (i 0).val hi0) (1 : Fin 2) * 1024 + 1024; omega

theorem coverC (i : S4096x1024.Idx) : ∃ t : Fin cfg0.N, (cfg0.win 7).flush t = true ∧ i ∈ ((cfg0.win 7).blk t).view.set := by
  have hi0 : (i 0).val < 4096 := idx2_lt0 i
  have hi1 : (i 1).val < 1024 := idx2_lt1 i
  refine ⟨pointOf (i 0).val hi0, flush0_7 _, ?_⟩
  obtain ⟨-, -, -, -, -, -, -, -, -, -, -, -, -, e70, e71⟩ := idx_facts (pointOf (i 0).val hi0)
  have et : (pointOf (i 0).val hi0).val = (i 0).val / 256 := rfl
  show i ∈ ((View.whole main_v9_1).slice (win0_7.rect (pointOf (i 0).val hi0))).set
  rw [View.set_slice_whole, Rect.mem_set_unit]
  intro a
  match a with
  | ⟨0, _⟩ => show win0_7.index (pointOf (i 0).val hi0) (0 : Fin 2) * 256 ≤ (i 0).val ∧ (i 0).val < win0_7.index (pointOf (i 0).val hi0) (0 : Fin 2) * 256 + 256; omega
  | ⟨1, _⟩ => show win0_7.index (pointOf (i 0).val hi0) (1 : Fin 2) * 1024 ≤ (i 1).val ∧ (i 1).val < win0_7.index (pointOf (i 0).val hi0) (1 : Fin 2) * 1024 + 1024; omega

/-- The hidden-state array ends holding the whole batch's new hidden state, -/
theorem finalH (c : Dev nD) : (dats m 0 c).arrAt 6 cfg0.N = newH m c :=
  (dats m 0 c).arrAt_eq_of_cover 6 (newH m c) (fun t _ => flushedH_eq m c t) coverH
/-- and the cell-state array the new cell state. -/
theorem finalC (c : Dev nD) : (dats m 0 c).arrAt 7 cfg0.N = newC m c :=
  (dats m 0 c).arrAt_eq_of_cover 7 (newC m c) (fun t _ => flushedC_eq m c t) coverC

/-! ## The closing host lines -/

/-- Two batch-shaped arrays, each given a leading axis of extent one, joined along it. -/
def stacked (a b : S4096x1024.Idx → Elt Ideal .f32) : S2x4096x1024.Idx → Elt Ideal .f32 :=
  concatenate S2x4096x1024 0 [⟨S1x4096x1024, broadcastInDim S1x4096x1024 ![1, 2] bcast_S4096x1024_S1x4096x1024_1_2 a⟩,
    ⟨S1x4096x1024, broadcastInDim S1x4096x1024 ![1, 2] bcast_S4096x1024_S1x4096x1024_1_2 b⟩] concatenates_S1x4096x1024_S1x4096x1024_S2x4096x1024_d0

theorem tail_eq (c : Dev nD) :
    Pipeline.afterTail₀ cfgs (dats m) 0 (V0 m) [hostOps1] c main_v12 = stacked (newH m c) (newC m c) := by
  unfold Pipeline.afterTail₀
  show StableHlo.after hostOps1 _ (Proc.devRef .tc main_v12) = _
  after_results
  rw [(Pipeline.withArrays_arr spec0 launch0.win.arr_inj c _ _ 6).trans (finalH m c),
    (Pipeline.withArrays_arr spec0 launch0.win.arr_inj c _ _ 7).trans (finalC m c)]
  rfl

/-! ## The run, with the result named -/

theorem run_named : θ_run defs (onTc (τ := τ) (main (F := Ideal))) ⟨m, fun _ => 0, ρ⟩ (fun r => ∀ c : Dev nD,
      r.2.mem ((c.tc : Thread nD τ).loc main_v12) = stacked (newH m c) (newC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨((h c).2 main_v12 (Pipeline.mem_restRefs_of main_v12 (by decide) (by decide))).trans (tail_eq m c),
      kept_of m (dats m) (A_eq m) r h c⟩) (run_main m ρ)

/-! ## The arrays the region finds, from the arguments -/

theorem Xa_eq (c : Dev nD) : Xa m c = m ((c : Thread nD τ).loc main_arg0) := V_main_arg0 m c

theorem Ha_eq (c : Dev nD) : Ha m c = shapeCast S4096x1024 (extractStridedSlice S1x4096x1024 ![0, 0, 0] (m ((c : Thread nD τ).loc main_arg1)) slices_S2x4096x1024_S1x4096x1024_0_0_0) shapeCasts_S1x4096x1024_S4096x1024 := by
  show StableHlo.after hostOps0 (fun b => m (c, b)) (Proc.devRef .tc main_v1) = _
  after_results
  rfl

theorem Ca_eq (c : Dev nD) : Ca m c = shapeCast S4096x1024 (extractStridedSlice S1x4096x1024 ![1, 0, 0] (m ((c : Thread nD τ).loc main_arg1)) slices_S2x4096x1024_S1x4096x1024_1_0_0) shapeCasts_S1x4096x1024_S4096x1024 := by
  show StableHlo.after hostOps0 (fun b => m (c, b)) (Proc.devRef .tc main_v3) = _
  after_results
  rfl

theorem Wa_eq (c : Dev nD) : Wa m c = concatenate S1024x4096 1 [⟨S1024x1024, m ((c : Thread nD τ).loc main_arg2)⟩, ⟨S1024x1024, m ((c : Thread nD τ).loc main_arg5)⟩, ⟨S1024x1024, m ((c : Thread nD τ).loc main_arg8)⟩, ⟨S1024x1024, m ((c : Thread nD τ).loc main_arg11)⟩] concatenates_S1024x1024_S1024x1024_S1024x1024_S1024x1024_S1024x4096_d1 := by
  show StableHlo.after hostOps0 (fun b => m (c, b)) (Proc.devRef .tc main_v5) = _
  after_results
  rfl

theorem Ua_eq (c : Dev nD) : Ua m c = concatenate S1024x4096 1 [⟨S1024x1024, m ((c : Thread nD τ).loc main_arg3)⟩, ⟨S1024x1024, m ((c : Thread nD τ).loc main_arg6)⟩, ⟨S1024x1024, m ((c : Thread nD τ).loc main_arg9)⟩, ⟨S1024x1024, m ((c : Thread nD τ).loc main_arg12)⟩] concatenates_S1024x1024_S1024x1024_S1024x1024_S1024x1024_S1024x4096_d1 := by
  show StableHlo.after hostOps0 (fun b => m (c, b)) (Proc.devRef .tc main_v7) = _
  after_results
  rfl

theorem ba_eq (c : Dev nD) : ba m c = concatenate S4096 0 [⟨S1024, m ((c : Thread nD τ).loc main_arg4)⟩, ⟨S1024, m ((c : Thread nD τ).loc main_arg7)⟩, ⟨S1024, m ((c : Thread nD τ).loc main_arg10)⟩, ⟨S1024, m ((c : Thread nD τ).loc main_arg13)⟩] concatenates_S1024_S1024_S1024_S1024_S4096_d0 := by
  show StableHlo.after hostOps0 (fun b => m (c, b)) (Proc.devRef .tc main_v8) = _
  after_results
  rfl

end Cert.KernelIdeal.Arr

end
-- ==== Proof.RefCell.lean ====
/-
  The reference's stages, read at one entry over the extended reals.

  The reference multiplies the whole batch by the joined weights in two products, adds them and the joined bias
  (a vector viewed as one row and repeated down the rows), cuts the fused columns into four gates and spells each
  logistic as 1 / (1 + exp (-x)) with the constant one. At the extended reals that quotient IS the logistic function,
  so at row r the cell-state stage and the hidden-state stage are the LSTM step of that row.
-/
import proofs.«153569_j39101382263299_1_alg».proof.Proof.Gen.ReferenceIdeal.Read
import proofs.«153569_j39101382263299_1_alg».proof.Proof.Cell
import Idealize.ShloMosaic.Lib.ValueIdx
import Idealize.ShloMosaic.Lib.IdealHost
import Idealize.ShloMosaic.PureOps.Ideal.Laws

noncomputable section

namespace Cert.ReferenceIdeal.CellValue

open Cert.ReferenceIdeal Cert.ReferenceIdeal.Gen Cert.ReferenceIdeal.Read Cert.LstmStep
open Idealize.ShloMosaic Idealize.ShloMosaic.ValueIdx

/-- The quotient 1 / (1 + exp (-x)), with the constant one given by its bit pattern, is the logistic function. -/
theorem logistic_spelled (x : EReal) :
    FloatOps.hostDivf (F := Ideal) (φ := .f32) (FloatOps.ofBits .f32 0x3F800000#32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = Ideal.div 1 (1 + Ideal.exp (-x))
  rw [Ideal.ofBits_one_f32]

variable (x0 : (⟨S4096x1024, .f32⟩ : BufTy).Contents (Elt Ideal)) (x1 : (⟨S2x4096x1024, .f32⟩ : BufTy).Contents (Elt Ideal)) (x2 x3 : (⟨S1024x1024, .f32⟩ : BufTy).Contents (Elt Ideal)) (x4 : (⟨S1024, .f32⟩ : BufTy).Contents (Elt Ideal)) (x5 x6 : (⟨S1024x1024, .f32⟩ : BufTy).Contents (Elt Ideal)) (x7 : (⟨S1024, .f32⟩ : BufTy).Contents (Elt Ideal)) (x8 x9 : (⟨S1024x1024, .f32⟩ : BufTy).Contents (Elt Ideal)) (x10 : (⟨S1024, .f32⟩ : BufTy).Contents (Elt Ideal)) (x11 x12 : (⟨S1024x1024, .f32⟩ : BufTy).Contents (Elt Ideal)) (x13 : (⟨S1024, .f32⟩ : BufTy).Contents (Elt Ideal))

/-- The previous hidden state, the previous cell state, the joined weights and the joined bias, as the reference
    forms them from its arguments. -/
abbrev Hm : Mat 4096 1024 := val_main_v1 (F := Ideal) x1
abbrev Cm : Mat 4096 1024 := val_main_v3 (F := Ideal) x1
abbrev Wm : Mat 1024 4096 := val_main_v4 (F := Ideal) x2 x5 x8 x11
abbrev Um : Mat 1024 4096 := val_main_v5 (F := Ideal) x3 x6 x9 x12
abbrev bm : Vc 4096 := val_main_v6 (F := Ideal) x4 x7 x10 x13

/-- The fused pre-activations of row r at column j. -/
theorem gates_apply (r : Fin 4096) (j : Fin 4096) :
    val_main_v12 (F := Ideal) x0 x1 x2 x3 x4 x5 x6 x7 x8 x9 x10 x11 x12 x13 (ix2 r j) = pre x0 (Hm x1) (Wm x2 x5 x8 x11) (Um x3 x6 x9 x12) (bm x4 x7 x10 x13) r j := by
  rw [val_main_v12_apply, val_main_v9_apply, val_main_v7_apply, val_main_v8_apply, val_main_v11_apply, val_main_v10_apply]
  have e1 : ∀ k, lidx_main_v7 (ix2 r j) k = ix2 r k := fun k => funext fun a => Fin.ext (by match a with | ⟨0, _⟩ => rfl | ⟨1, _⟩ => rfl)
  have e2 : ∀ k, ridx_main_v7 (ix2 r j) k = ix2 k j := fun k => funext fun a => Fin.ext (by match a with | ⟨0, _⟩ => rfl | ⟨1, _⟩ => rfl)
  have e3 : ∀ k, lidx_main_v8 (ix2 r j) k = ix2 r k := fun k => funext fun a => Fin.ext (by match a with | ⟨0, _⟩ => rfl | ⟨1, _⟩ => rfl)
  have e4 : ∀ k, ridx_main_v8 (ix2 r j) k = ix2 k j := fun k => funext fun a => Fin.ext (by match a with | ⟨0, _⟩ => rfl | ⟨1, _⟩ => rfl)
  have e5 : idx_main_v10 (idx_main_v11 (ix2 r j)) = ix1 j := funext fun a => Fin.ext (by match a with | ⟨0, _⟩ => rfl)
  simp only [e1, e2, e3, e4, e5]
  rfl

/-- The slice of the fused columns that starts at offset o reads column o + q. -/
theorem col_idx (o : Nat) (ho : o + 1024 ≤ 4096) (i : S4096x4096.Idx) (r : Fin 4096) (q : Fin 1024)
    (h0 : (i 0).val = r.val) (h1 : (i 1).val = o + q.val) : i = ix2 r (gcol o ho q) :=
  funext fun a => Fin.ext (by match a with | ⟨0, _⟩ => exact h0 | ⟨1, _⟩ => exact h1)

/-- The input gate of row r at column q. -/
theorem igate_apply (r : Fin 4096) (q : Fin 1024) :
    val_main_v19 (F := Ideal) x0 x1 x2 x3 x4 x5 x6 x7 x8 x9 x10 x11 x12 x13 (ix2 r q)
      = Ideal.logistic (pre x0 (Hm x1) (Wm x2 x5 x8 x11) (Um x3 x6 x9 x12) (bm x4 x7 x10 x13) r (gcol 0 (by decide) q)) := by
  rw [val_main_v19_apply, val_main_v18_apply, val_main_cst_0_apply, val_main_v17_apply, val_main_v16_apply, val_main_cst_apply,
    val_main_v15_apply, val_main_v14_apply, val_main_v13_apply,
    col_idx 0 (by decide) (idx_main_v13 (ix2 r q)) r q rfl (Nat.zero_add _).symm, gates_apply, logistic_spelled]

/-- The forget gate of row r at column q. -/
theorem fgate_apply (r : Fin 4096) (q : Fin 1024) :
    val_main_v26 (F := Ideal) x0 x1 x2 x3 x4 x5 x6 x7 x8 x9 x10 x11 x12 x13 (ix2 r q)
      = Ideal.logistic (pre x0 (Hm x1) (Wm x2 x5 x8 x11) (Um x3 x6 x9 x12) (bm x4 x7 x10 x13) r (gcol 1024 (by decide) q)) := by
  rw [val_main_v26_apply, val_main_v25_apply, val_main_cst_2_apply, val_main_v24_apply, val_main_v23_apply, val_main_cst_1_apply,
    val_main_v22_apply, val_main_v21_apply, val_main_v20_apply,
    col_idx 1024 (by decide) (idx_main_v20 (ix2 r q)) r q rfl rfl, gates_apply, logistic_spelled]

/-- The output gate of row r at column q. -/
theorem ogate_apply (r : Fin 4096) (q : Fin 1024) :
    val_main_v33 (F := Ideal) x0 x1 x2 x3 x4 x5 x6 x7 x8 x9 x10 x11 x12 x13 (ix2 r q)
      = Ideal.logistic (pre x0 (Hm x1) (Wm x2 x5 x8 x11) (Um x3 x6 x9 x12) (bm x4 x7 x10 x13) r (gcol 2048 (by decide) q)) := by
  rw [val_main_v33_apply, val_main_v32_apply, val_main_cst_4_apply, val_main_v31_apply, val_main_v30_apply, val_main_cst_3_apply,
    val_main_v29_apply, val_main_v28_apply, val_main_v27_apply,
    col_idx 2048 (by decide) (idx_main_v27 (ix2 r q)) r q rfl rfl, gates_apply, logistic_spelled]

/-- The candidate of row r at column q. -/
theorem cand_apply (r : Fin 4096) (q : Fin 1024) :
    val_main_v35 (F := Ideal) x0 x1 x2 x3 x4 x5 x6 x7 x8 x9 x10 x11 x12 x13 (ix2 r q)
      = Ideal.tanh (pre x0 (Hm x1) (Wm x2 x5 x8 x11) (Um x3 x6 x9 x12) (bm x4 x7 x10 x13) r (gcol 3072 (by decide) q)) := by
  rw [val_main_v35_apply, val_main_v34_apply,
    col_idx 3072 (by decide) (idx_main_v34 (ix2 r q)) r q rfl rfl, gates_apply]
  rfl

/-- The new cell state of row r at column q. -/
theorem cell_apply (r : Fin 4096) (q : Fin 1024) :
    val_main_v38 (F := Ideal) x0 x1 x2 x3 x4 x5 x6 x7 x8 x9 x10 x11 x12 x13 (ix2 r q)
      = cellOut x0 (Hm x1) (Cm x1) (Wm x2 x5 x8 x11) (Um x3 x6 x9 x12) (bm x4 x7 x10 x13) r q := by
  rw [val_main_v38_apply, val_main_v36_apply, val_main_v37_apply, fgate_apply, igate_apply, cand_apply]
  rfl

/-- The new hidden state of row r at column q. -/
theorem hid_apply (r : Fin 4096) (q : Fin 1024) :
    val_main_v40 (F := Ideal) x0 x1 x2 x3 x4 x5 x6 x7 x8 x9 x10 x11 x12 x13 (ix2 r q)
      = hidOut x0 (Hm x1) (Cm x1) (Wm x2 x5 x8 x11) (Um x3 x6 x9 x12) (bm x4 x7 x10 x13) r q := by
  rw [val_main_v40_apply, val_main_v39_apply, ogate_apply, cell_apply]
  rfl

end Cert.ReferenceIdeal.CellValue

end
-- ==== Proof.Bridge.lean ====
/-
  The two idealized programs compute one function of the arguments.

  The kernel program leaves the stack of the whole batch's new hidden and cell states, computed from the arrays its
  region finds: the input as launched, the two halves of the stacked state, the joined weights of each kind (narrowed,
  which changes nothing over the extended reals) and the joined bias. The reference forms the same arrays from the
  same arguments and its two last stages before the stack are, entry by entry, the same LSTM step. So the results are
  equal, whatever the arguments hold: no entry needs to be finite.
-/
import proofs.«153569_j39101382263299_1_alg».proof.Defs
import proofs.«153569_j39101382263299_1_alg».proof.Proof.KernelArr
import proofs.«153569_j39101382263299_1_alg».proof.Proof.RunKernel
import proofs.«153569_j39101382263299_1_alg».proof.Proof.RefCell
import proofs.«153569_j39101382263299_1_alg».proof.Proof.Gen.ReferenceIdeal.Run
import proofs.«153569_j39101382263299_1_alg».proof.Proof.Gen.ReferenceIdeal.Read
import proofs.«153569_j39101382263299_1_alg».proof.Proof.Gen.Pre_finite_inputs

noncomputable section

namespace Cert.Bridge

open Idealize.ShloMosaic Idealize.ShloMosaic.TcCoe Idealize.ShloMosaic.ValueIdx Idealize.SL.Sem
open Cert.LstmStep

variable (m : (ℓ : Loc Cert.KernelIdeal.nD Cert.KernelIdeal.τ Cert.KernelIdeal.sig) → Buf (Elt Ideal) ℓ)

/-- The reference's hidden-state stage, applied to the kernel program's arguments, is the kernel program's new
    hidden state. -/
theorem hid_eq (c : Dev Cert.KernelIdeal.nD) :
    Cert.ReferenceIdeal.Read.val_main_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Arr.newH m c := by
  funext i
  obtain ⟨r, q, rfl⟩ : ∃ (r : Fin 4096) (q : Fin 1024), i = ix2 r q := ⟨i 0, i 1, eq_ix2 i⟩
  rw [Cert.ReferenceIdeal.CellValue.hid_apply, Cert.KernelIdeal.Arr.newH_at m c (ix2 r q) r q rfl rfl,
    Cert.KernelIdeal.Arr.Xa_eq, Cert.KernelIdeal.Arr.Ha_eq, Cert.KernelIdeal.Arr.Ca_eq, Cert.KernelIdeal.Arr.Wa_eq,
    Cert.KernelIdeal.Arr.Ua_eq, Cert.KernelIdeal.Arr.ba_eq]
  rfl

/-- The same for the cell-state stage. -/
theorem cell_eq (c : Dev Cert.KernelIdeal.nD) :
    Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Arr.newC m c := by
  funext i
  obtain ⟨r, q, rfl⟩ : ∃ (r : Fin 4096) (q : Fin 1024), i = ix2 r q := ⟨i 0, i 1, eq_ix2 i⟩
  rw [Cert.ReferenceIdeal.CellValue.cell_apply, Cert.KernelIdeal.Arr.newC_at m c (ix2 r q) r q rfl rfl,
    Cert.KernelIdeal.Arr.Xa_eq, Cert.KernelIdeal.Arr.Ha_eq, Cert.KernelIdeal.Arr.Ca_eq, Cert.KernelIdeal.Arr.Wa_eq,
    Cert.KernelIdeal.Arr.Ua_eq, Cert.KernelIdeal.Arr.ba_eq]
  rfl

/-- So the reference's result, on the kernel program's arguments, is the kernel program's result: both stack the two
    states in the same way. -/
theorem result_eq (c : Dev Cert.KernelIdeal.nD) :
    Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Arr.stacked (Cert.KernelIdeal.Arr.newH m c) (Cert.KernelIdeal.Arr.newC m c) := by
  unfold Cert.ReferenceIdeal.Read.val_main_v43 Cert.ReferenceIdeal.Read.val_main_v41 Cert.ReferenceIdeal.Read.val_main_v42
  rw [hid_eq m c, cell_eq m c]
  rfl

/-! ## The claims -/

theorem frame_k : Cert.frame_Kernel := fun m ρ _ => Cert.Kernel.Run.frame m ρ

theorem frame_ki : Cert.frame_KernelIdeal := fun m ρ _ => Cert.KernelIdeal.Run.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Arr.stacked (Cert.KernelIdeal.Arr.newH m c) (Cert.KernelIdeal.Arr.newC m c),
    Cert.KernelIdeal.Arr.run_named m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v43_eq, a0, a1, a2, a3, a4, a5, a6, a7, a8, a9, a10, a11, a12, a13]
  exact result_eq m c

end Cert.Bridge

end
-- ==== Proof.lean ====
/-
  An LSTM step on the accelerator against its plain description: both compute, for a batch of 4096 rows,
  gates = x W + h U + b over the four joined gates, c' = logistic(f) c + logistic(i) tanh(g) and
  h' = logistic(o) tanh(c'), and return the stack of h' and c'.

  The kernel program tiles the batch into 16 blocks of 256 rows, narrows the operands of its two matrix products and
  uses the logistic operation; the reference multiplies the whole batch at once and spells the logistic as a quotient.
  Over the extended reals these are the same function of the arguments, entry by entry: a narrowing is the identity, a
  matrix product into zero is the sum over the contracted axis, a row of the step depends on that row only, and
  1 / (1 + exp (-x)) is the logistic function. Nothing needs the inputs to be finite.

  The modules: Cell (the step, row by row), KernelCell and RefCell (each program's arithmetic is the step),
  RunKernel and RunKernelIdeal (each kernel program runs to the end and keeps its arguments), KernelArr (the blocks
  the region writes make up the whole batch's step), Bridge (the two results are equal; the claims).
-/
import proofs.«153569_j39101382263299_1_alg».proof.Defs
import proofs.«153569_j39101382263299_1_alg».proof.Proof.Gen.Kernel
import proofs.«153569_j39101382263299_1_alg».proof.Proof.Gen.KernelIdeal
import proofs.«153569_j39101382263299_1_alg».proof.Proof.Gen.ReferenceIdeal
import proofs.«153569_j39101382263299_1_alg».proof.Proof.Gen.Pre_finite_inputs
import proofs.«153569_j39101382263299_1_alg».proof.Proof.RunKernel
import proofs.«153569_j39101382263299_1_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Bridge.frame_k, Cert.Bridge.frame_ki, Cert.Bridge.frame_ri, Cert.Bridge.preserves, Cert.Bridge.algebraic⟩

end Cert.Proof

end
